-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x3 .f32) (main_arg5 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x500 : Shape := ⟨2, ![4000, 500]⟩
abbrev S4000x16 : Shape := ⟨2, ![4000, 16]⟩
abbrev S3300000x16 : Shape := ⟨2, ![3300000, 16]⟩
abbrev S1x16 : Shape := ⟨2, ![1, 16]⟩
abbrev S100000x3 : Shape := ⟨2, ![100000, 3]⟩
abbrev S4000x3 : Shape := ⟨2, ![4000, 3]⟩
abbrev S3300000x3 : Shape := ⟨2, ![3300000, 3]⟩
abbrev S1x3 : Shape := ⟨2, ![1, 3]⟩
abbrev S100000x1 : Shape := ⟨2, ![100000, 1]⟩

abbrev nBuf : Space → Nat
  | .hbm => 107
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x3, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x3, .f32⟩
  | .hbm, ⟨82, _⟩ => ⟨S3300000x1, .f32⟩
  | .hbm, ⟨83, _⟩ => ⟨S3300000x3, .f32⟩
  | .hbm, ⟨84, _⟩ => ⟨S3300000x3, .f32⟩
  | .hbm, ⟨85, _⟩ => ⟨S_, .f32⟩
  | .hbm, ⟨86, _⟩ => ⟨S100000x3, .f32⟩
  | .hbm, ⟨87, _⟩ => ⟨S3300000x1, .i32⟩
  | .hbm, ⟨88, _⟩ => ⟨S100000x3, .f32⟩
  | .hbm, ⟨89, _⟩ => ⟨S1x3, .f32⟩
  | .hbm, ⟨90, _⟩ => ⟨S100000x3, .f32⟩
  | .hbm, ⟨91, _⟩ => ⟨S100000x3, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x3, .f32⟩
  | .hbm, ⟨99, _⟩ => ⟨S100000x3, .f32⟩
  | .hbm, ⟨100, _⟩ => ⟨S100000x3, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x3, .f32⟩
  | .hbm, ⟨106, _⟩ => ⟨S100000x3, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x3, .f32⟩
  | .local _ .vmem, ⟨8, _⟩ => ⟨S4000x3, .f32⟩
  | .local _ .vmem, ⟨9, _⟩ => ⟨S4000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x3_S16x3_0_0 : ∀ a, (![0, 0] : Fin 2 → Nat) a + S16x3.size a ≤ S16x3.size a
  h_S16x3 : 0 < S16x3.numel
  inb_S4000x3_S4000x3_0_0 : ∀ a, (![0, 0] : Fin 2 → Nat) a + S4000x3.size a ≤ S4000x3.size a
  h_S4000x3 : 0 < S4000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x3_S4000x3_1_0_0_1_n_n_wf : DotDims.WF S4000x16 S16x3 S4000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x3.size a ≤ S16x3.size a
  hwx1_1 : ∀ i : grid1.Coords, EltTy.bits .f32 = 32 ∨ (Rect.block (s := S16x3) S16x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S100000x3.size a
  hwx1_2 : ∀ i : grid1.Coords, EltTy.bits .f32 = 32 ∨ (Rect.block (s := S100000x3) S4000x3.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x3_S4000x3_1_0_0_1_n_n : DotDims S4000x16 S16x3 S4000x3 where
  lhsContracting := [1]
  rhsContracting := [0]
  lhsNonContracting := [0]
  rhsNonContracting := [1]
  lhsBatch := []
  rhsBatch := []
  wf := dot_S4000x16_S16x3_S4000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x3 : Shape := ⟨2, ![100000, 3]⟩
abbrev S3300000x3 : Shape := ⟨2, ![3300000, 3]⟩
abbrev S1x3 : Shape := ⟨2, ![1, 3]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x3, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x3, .f32⟩
  | .hbm, ⟨82, _⟩ => ⟨S3300000x1, .f32⟩
  | .hbm, ⟨83, _⟩ => ⟨S3300000x3, .f32⟩
  | .hbm, ⟨84, _⟩ => ⟨S3300000x3, .f32⟩
  | .hbm, ⟨85, _⟩ => ⟨S_, .f32⟩
  | .hbm, ⟨86, _⟩ => ⟨S100000x3, .f32⟩
  | .hbm, ⟨87, _⟩ => ⟨S3300000x1, .i32⟩
  | .hbm, ⟨88, _⟩ => ⟨S100000x3, .f32⟩
  | .hbm, ⟨89, _⟩ => ⟨S1x3, .f32⟩
  | .hbm, ⟨90, _⟩ => ⟨S100000x3, .f32⟩
  | .hbm, ⟨91, _⟩ => ⟨S100000x3, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x3, .f32⟩
  | .hbm, ⟨99, _⟩ => ⟨S100000x3, .f32⟩
  | .hbm, ⟨100, _⟩ => ⟨S100000x3, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x3, .f32⟩
  | .hbm, ⟨106, _⟩ => ⟨S100000x3, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x500_S500x16_S100000x16_1_0_0_1_n_n_wf : DotDims.WF S100000x500 S500x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x3_S100000x3_1_0_0_1_n_n_wf : DotDims.WF S100000x16 S16x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.Stages.lean ====
/-
  The host operations of the kernel's program, stretch by stretch, read as the same functions of the six argument
  arrays that the reference program computes.

  The program is: a first stretch of host operations (the edge list with self-loops appended, the in-degrees by a
  scatter-add of ones, their clamped inverse square roots, the per-edge normalisation as a product of two gathers),
  the first matrix product as a pallas_call, a second stretch (gather the product's rows along the edges, scale,
  scatter-add per node, add the bias, clamp below at zero), the second matrix product as a pallas_call, and a last
  stretch (the same aggregation at width 3, then a log-softmax along each row). The reference program applies the very
  same host operations in the same order, with a host `dot_general` where this program has a pallas_call. So at each
  boundary between stretches, every buffer a later operation reads holds the reference's value for that buffer
  (`val_<buffer>` of the arguments) PROVIDED the pallas_call before it left the reference's matrix product in its
  output array; that proviso is a hypothesis here (`h32`, `h50`) and is discharged, at the ideal numbers, elsewhere.
  Every statement holds for any float family: nothing here looks inside an operation.
-/
import proofs.«123117_j81243601371888_1_alg».proof.Proof.Gen.KernelIdeal.Frame
import proofs.«123117_j81243601371888_1_alg».proof.Proof.RefReadP

set_option maxRecDepth 16384

noncomputable section

open Idealize.ShloMosaic Idealize.ShloMosaic.TcCoe Idealize.SL.Sem

namespace Cert.KernelIdeal.Stages

open Cert.KernelIdeal Cert.KernelIdeal.Gen
open Cert.ReferenceIdeal.ReadP (val_main_v3 val_main_v6 val_main_v31 val_main_v32 val_main_v49 val_main_v50 val_main_v67)

variable {F : FTy → Type} [FloatOps F]
variable (m : (ℓ : Loc nD τ sig) → Buf (Elt F) ℓ) (ρ : Dev nD → PrngReg)

/-- The six argument arrays at launch. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ## Entering the first pallas_call -/

/-- Before the first pallas_call: the source-node list with the self-loops appended. -/
theorem pre_v3 (c : Dev nD) : W3 m ρ c (Proc.devRef .tc main_v3) = val_main_v3 (F := F) (a1 m c) := by
  show StableHlo.after hostOps0_2 (StableHlo.after hostOps0_1 (StableHlo.after hostOps0 (W0 m ρ c))) (Proc.devRef .tc main_v3) = _
  after_results
  rfl

/-- Before the first pallas_call: the destination-node list with the self-loops appended. -/
theorem pre_v6 (c : Dev nD) : W3 m ρ c (Proc.devRef .tc main_v6) = val_main_v6 (F := F) (a1 m c) := by
  show StableHlo.after hostOps0_2 (StableHlo.after hostOps0_1 (StableHlo.after hostOps0 (W0 m ρ c))) (Proc.devRef .tc main_v6) = _
  after_results
  rfl

set_option maxHeartbeats 4000000 in
/-- Before the first pallas_call: the per-edge normalisation. -/
theorem pre_v31 (c : Dev nD) : W3 m ρ c (Proc.devRef .tc main_v31) = val_main_v31 (F := F) (a1 m c) := by
  show StableHlo.after hostOps0_2 (StableHlo.after hostOps0_1 (StableHlo.after hostOps0 (W0 m ρ c))) (Proc.devRef .tc main_v31) = _
  after_results_simp
  rfl

/-- Before the first pallas_call: the node features. -/
theorem pre_arg0 (c : Dev nD) : W3 m ρ c (Proc.devRef .tc main_arg0) = a0 m c := by
  show StableHlo.after hostOps0_2 (StableHlo.after hostOps0_1 (StableHlo.after hostOps0 (W0 m ρ c))) (Proc.devRef .tc main_arg0) = _
  after_results

/-- Before the first pallas_call: the first layer's weights. -/
theorem pre_arg2 (c : Dev nD) : W3 m ρ c (Proc.devRef .tc main_arg2) = a2 m c := by
  show StableHlo.after hostOps0_2 (StableHlo.after hostOps0_1 (StableHlo.after hostOps0 (W0 m ρ c))) (Proc.devRef .tc main_arg2) = _
  after_results

/-- Before the first pallas_call: the first layer's bias. -/
theorem pre_arg3 (c : Dev nD) : W3 m ρ c (Proc.devRef .tc main_arg3) = a3 m c := by
  show StableHlo.after hostOps0_2 (StableHlo.after hostOps0_1 (StableHlo.after hostOps0 (W0 m ρ c))) (Proc.devRef .tc main_arg3) = _
  after_results

/-- Before the first pallas_call: the second layer's weights. -/
theorem pre_arg4 (c : Dev nD) : W3 m ρ c (Proc.devRef .tc main_arg4) = a4 m c := by
  show StableHlo.after hostOps0_2 (StableHlo.after hostOps0_1 (StableHlo.after hostOps0 (W0 m ρ c))) (Proc.devRef .tc main_arg4) = _
  after_results

/-- Before the first pallas_call: the second layer's bias. -/
theorem pre_arg5 (c : Dev nD) : W3 m ρ c (Proc.devRef .tc main_arg5) = a5 m c := by
  show StableHlo.after hostOps0_2 (StableHlo.after hostOps0_1 (StableHlo.after hostOps0 (W0 m ρ c))) (Proc.devRef .tc main_arg5) = _
  after_results

/-! ## Between the two pallas_calls -/

set_option maxHeartbeats 4000000 in
/-- Entering the second pallas_call, its left operand is the reference's hidden layer — the first product's rows
    gathered along the edges, scaled, summed per destination node, biased and clamped below at zero — provided the
    first pallas_call left the reference's first product in its output array. -/
theorem mid_v49 (c : Dev nD)
    (h32 : W4 m ρ c (Proc.devRef .tc main_v32) = val_main_v32 (F := F) (a0 m c) (a2 m c)) :
    W6 m ρ c (Proc.devRef .tc main_v49) = val_main_v49 (F := F) (a0 m c) (a1 m c) (a2 m c) (a3 m c) := by
  show StableHlo.after hostOps1_1 (StableHlo.after hostOps1 (W4 m ρ c)) (Proc.devRef .tc main_v49) = _
  after_results_simp
  rw [h32, W4_of_ne m ρ c main_v3 (by decide), W4_of_ne m ρ c main_v6 (by decide), W4_of_ne m ρ c main_v31 (by decide),
    W4_of_ne m ρ c main_arg3 (by decide), pre_v3, pre_v6, pre_v31, pre_arg3]
  rfl

/-- Entering the second pallas_call, untouched since the first stretch: the source-node list with the self-loops appended. -/
theorem mid_v3 (c : Dev nD) : W6 m ρ c (Proc.devRef .tc main_v3) = val_main_v3 (F := F) (a1 m c) := by
  show StableHlo.after hostOps1_1 (StableHlo.after hostOps1 (W4 m ρ c)) (Proc.devRef .tc main_v3) = _
  after_results
  rw [W4_of_ne m ρ c main_v3 (by decide), pre_v3]

/-- Entering the second pallas_call, untouched since the first stretch: the destination-node list with the self-loops appended. -/
theorem mid_v6 (c : Dev nD) : W6 m ρ c (Proc.devRef .tc main_v6) = val_main_v6 (F := F) (a1 m c) := by
  show StableHlo.after hostOps1_1 (StableHlo.after hostOps1 (W4 m ρ c)) (Proc.devRef .tc main_v6) = _
  after_results
  rw [W4_of_ne m ρ c main_v6 (by decide), pre_v6]

/-- Entering the second pallas_call, untouched since the first stretch: the per-edge normalisation. -/
theorem mid_v31 (c : Dev nD) : W6 m ρ c (Proc.devRef .tc main_v31) = val_main_v31 (F := F) (a1 m c) := by
  show StableHlo.after hostOps1_1 (StableHlo.after hostOps1 (W4 m ρ c)) (Proc.devRef .tc main_v31) = _
  after_results
  rw [W4_of_ne m ρ c main_v31 (by decide), pre_v31]

/-- Entering the second pallas_call, untouched since the first stretch: the second layer's weights. -/
theorem mid_arg4 (c : Dev nD) : W6 m ρ c (Proc.devRef .tc main_arg4) = a4 m c := by
  show StableHlo.after hostOps1_1 (StableHlo.after hostOps1 (W4 m ρ c)) (Proc.devRef .tc main_arg4) = _
  after_results
  rw [W4_of_ne m ρ c main_arg4 (by decide), pre_arg4]

/-- Entering the second pallas_call, untouched since the first stretch: the second layer's bias. -/
theorem mid_arg5 (c : Dev nD) : W6 m ρ c (Proc.devRef .tc main_arg5) = a5 m c := by
  show StableHlo.after hostOps1_1 (StableHlo.after hostOps1 (W4 m ρ c)) (Proc.devRef .tc main_arg5) = _
  after_results
  rw [W4_of_ne m ρ c main_arg5 (by decide), pre_arg5]

/-! ## After the second pallas_call -/

set_option maxHeartbeats 4000000 in
/-- The program's result is the reference's — the second product's rows gathered along the edges, scaled, summed per
    destination node, biased, and the log-softmax of each row — provided the second pallas_call left the reference's
    second product in its output array. -/
theorem tail_v67 (c : Dev nD)
    (h50 : W7 m ρ c (Proc.devRef .tc main_v50) = val_main_v50 (F := F) (a0 m c) (a1 m c) (a2 m c) (a3 m c) (a4 m c)) :
    W9 m ρ c (Proc.devRef .tc main_v67) = val_main_v67 (F := F) (a0 m c) (a1 m c) (a2 m c) (a3 m c) (a4 m c) (a5 m c) := by
  show StableHlo.after hostOps2_1 (StableHlo.after hostOps2 (W7 m ρ c)) (Proc.devRef .tc main_v67) = _
  after_results_simp
  rw [h50, W7_of_ne m ρ c main_v3 (by decide), W7_of_ne m ρ c main_v6 (by decide), W7_of_ne m ρ c main_v31 (by decide),
    W7_of_ne m ρ c main_arg5 (by decide), mid_v3, mid_v6, mid_v31, mid_arg5]
  simp only [StableHlo.TRef.ofBuf, StableHlo.TRef.toBuf, cast_eq]
  rfl

end Cert.KernelIdeal.Stages

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Product0.lean ====
/-
  The first pallas_call of the program, read as a value at the ideal numbers: a 100000 × 500 array times a 500 × 16
  array, computed 4000 rows at a time over 25 grid points.

  Each grid point multiplies its 4000 × 500 block of the left array by the whole right array (both narrowed to bf16
  first, which at the ideal numbers changes nothing) into a zero accumulator, so entry (a, b) of the block's result is
  the sum over k of left(a, k) · right(k, b). Point t's block is rows 4000·t … 4000·t + 3999 of the arrays, the 25
  blocks tile the 100000 rows, and so the output array ends holding, at every entry (r, b), the sum over k of
  left(r, k) · right(k, b): the matrix product of the two whole arrays. Stated for any contents the region is
  entered with.
-/
import proofs.«123117_j81243601371888_1_alg».proof.Proof.Gen.KernelIdeal.Frame
import proofs.«123117_j81243601371888_1_alg».proof.Proof.LibDot
import Idealize.ShloMosaic.Lib.Pipeline.Value
import Idealize.ShloMosaic.Lib.ValueIdx
set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Product0

open Cert.KernelIdeal Cert.KernelIdeal.Gen

/-- The matrix product of a 100000 × 500 array by a 500 × 16 array, entry by entry. -/
def prod (x : Vec Ideal S100000x500 .f32) (w : Vec Ideal S500x16 .f32) : Vec Ideal S100000x16 .f32 :=
  fun i => ∑ k : Fin 500, x (ix2 (i 0) k) * w (ix2 k (i 1))

theorem hz : (![0, 0] : Fin 2 → Nat) = fun _ => 0 := funext fun a => by fin_cases a <;> rfl

/-- One block's result at entry (a, b): the sum over k of the left block's (a, k) times the right block's (k, b). -/
theorem pay_ix2 (x0 : Vec Ideal S4000x500 .f32) (x1 : Vec Ideal S500x16 .f32) (a : Fin 4000) (b : Fin 16) :
    k0_pay1 x0 x1 (ix2 a b) = ∑ k : Fin 500, x0 (ix2 a k) * x1 (ix2 k b) := by
  unfold k0_pay1
  exact Cert.LibDot.matmul_10_zero_apply dot_S4000x500_S500x16_S4000x16_1_0_0_1_n_n rfl rfl rfl rfl rfl rfl none
    (truncf .bf16 x0 bitsLt_bf16_f32) (truncf .bf16 x1 bitsLt_bf16_f32) a b

theorem pay_apply (x0 : Vec Ideal S4000x500 .f32) (x1 : Vec Ideal S500x16 .f32) (j : S4000x16.Idx) :
    k0_pay1 x0 x1 j = ∑ k : Fin 500, x0 (ix2 (j 0) k) * x1 (ix2 k (j 1)) := by
  obtain ⟨p, q, rfl⟩ : ∃ (p : Fin 4000) (q : Fin 16), j = ix2 p q := ⟨j 0, j 1, eq_ix2 j⟩
  exact pay_ix2 x0 x1 p q

/-- Where each window's block sits at grid point t: the left and the output blocks at row block t, the right array
    whole. Decided over the 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Entry
variable (V : (c : Dev nD) → (b : Ref sig .tc) → Buf (Elt Ideal) ((c : Thread nD τ).loc b))

/-- The two input arrays as the region finds them, and the blocks of them a grid point works on, at their literal
    shapes. -/
abbrev xarr (c : Dev nD) : Vec Ideal S100000x500 .f32 := V c main_arg0
abbrev warr (c : Dev nD) : Vec Ideal S500x16 .f32 := V c main_arg2
abbrev xblk (c : Dev nD) (t : Fin cfg0.N) : Vec Ideal S4000x500 .f32 := iblk0 V c 0 t
abbrev wblk (c : Dev nD) (t : Fin cfg0.N) : Vec Ideal S500x16 .f32 := iblk0 V c 1 t

/-- The left block at point t is rows 4000·t … of the left array. -/
theorem xblk_apply (c : Dev nD) (t : Fin cfg0.N) (y : S4000x500.Idx) (i : S100000x500.Idx)
    (h0 : (i 0).val = t.val * 4000 + (y 0).val) (h1 : (i 1).val = (y 1).val) :
    xblk V c t y = xarr V c i := by
  obtain ⟨e0, e1, -, -, -, -⟩ := idx_facts t
  unfold xblk iblk0
  rw [View.read_apply]
  show V c main_arg0 _ = V c main_arg0 _
  congr 1
  funext a
  apply Fin.ext
  match a with
  | ⟨0, _⟩ => show win0_0.index t 0 * 4000 + 1 * (y 0).val = (i 0).val; rw [e0, h0]; omega
  | ⟨1, _⟩ => show win0_0.index t 1 * 500 + 1 * (y 1).val = (i 1).val; rw [e1, h1]; omega

/-- The right block at every point is the right array. -/
theorem wblk_apply (c : Dev nD) (t : Fin cfg0.N) (y : S500x16.Idx) : wblk V c t y = warr V c y := by
  obtain ⟨-, -, e0, e1, -, -⟩ := idx_facts t
  unfold wblk iblk0
  rw [View.read_apply]
  show V c main_arg2 _ = V c main_arg2 _
  congr 1
  funext a
  apply Fin.ext
  match a with
  | ⟨0, _⟩ => show win0_1.index t 0 * 500 + 1 * (y 0).val = (y 0).val; rw [e0]; omega
  | ⟨1, _⟩ => show win0_1.index t 1 * 16 + 1 * (y 1).val = (y 1).val; rw [e1]; omega

/-- What point t writes back is block t of the product of the whole arrays. -/
theorem flushed_eq (c : Dev nD) (t : Fin cfg0.N) :
    (dat0 V c).flushed 2 t = ((cfg0.win 2).blk t).view.read (Elt Ideal) (prod (xarr V c) (warr V c)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S4000x500) hz, View.ld_unit_zero (S := S500x16) hz]
  funext j
  show k0_pay1 (xblk V c t) (wblk V c t) j = prod (xarr V c) (warr V c) (((cfg0.win 2).blk t).view.emb j)
  rw [pay_apply]
  unfold prod
  refine Finset.sum_congr rfl fun k _ => ?_
  have hj0 : (j 0).val < 4000 := (j 0).isLt
  have ha : ((((cfg0.win 2).blk t).view.emb j) 0).val = t.val * 4000 + (j 0).val := by
    show win0_2.index t 0 * 4000 + 1 * (j 0).val = _; rw [e0]; omega
  have hb : ((((cfg0.win 2).blk t).view.emb j) 1).val = (j 1).val := by
    show win0_2.index t 1 * 16 + 1 * (j 1).val = _; rw [e1]; omega
  rw [xblk_apply V c t (ix2 (j 0) k) (ix2 ((((cfg0.win 2).blk t).view.emb j) 0) k) ha rfl, wblk_apply V c t]
  congr 2
  funext a
  apply Fin.ext
  match a with
  | ⟨0, _⟩ => rfl
  | ⟨1, _⟩ => exact hb.symm

/-- An index of the output array is in point t's block iff each coordinate is in the block's range. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- The 25 blocks tile the output array: row r is in block r / 4000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  refine ⟨⟨(i 0).val / 4000, by show _ < 25; omega⟩, flush0_2 _, ?_⟩
  obtain ⟨-, -, -, -, e0, e1⟩ := idx_facts ⟨(i 0).val / 4000, by show _ < 25; omega⟩
  rw [mem_blk]
  intro a
  match a with
  | ⟨0, _⟩ => show win0_2.index _ (0 : Fin 2) * 4000 ≤ (i 0).val ∧ (i 0).val < win0_2.index _ (0 : Fin 2) * 4000 + 4000; rw [e0]; show (i 0).val / 4000 * 4000 ≤ _ ∧ _ < (i 0).val / 4000 * 4000 + 4000; omega
  | ⟨1, _⟩ => show win0_2.index _ (1 : Fin 2) * 16 ≤ (i 1).val ∧ (i 1).val < win0_2.index _ (1 : Fin 2) * 16 + 16; rw [e1]; omega

/-- The output array after the region: the matrix product of the two input arrays as the region found them. -/
theorem final (c : Dev nD) : (dat0 V c).arrAt 2 cfg0.N = prod (xarr V c) (warr V c) :=
  (dat0 V c).arrAt_eq_of_cover 2 (prod (xarr V c) (warr V c)) (fun t _ => flushed_eq V c t) cover

end Entry

end Cert.KernelIdeal.Product0

end
-- ==== Proof.Product1.lean ====
/-
  The second pallas_call of the program, read as a value at the ideal numbers: a 100000 × 16 array times a 16 × 3
  array, computed 4000 rows at a time over 25 grid points.

  As in the first call, each grid point multiplies its 4000 × 16 block of the left array (cast to its own shape, which
  is the identity, then narrowed to bf16, which at the ideal numbers changes nothing) by the whole right array into a
  zero accumulator; block t is rows 4000·t … 4000·t + 3999, the 25 blocks tile the rows, and the output array ends
  holding the matrix product of the two whole arrays. Stated for any contents the region is entered with.
-/
import proofs.«123117_j81243601371888_1_alg».proof.Proof.Gen.KernelIdeal.Frame
import proofs.«123117_j81243601371888_1_alg».proof.Proof.LibDot
import Idealize.ShloMosaic.Lib.Pipeline.Value
import Idealize.ShloMosaic.Lib.ValueIdx
set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Product1

open Cert.KernelIdeal Cert.KernelIdeal.Gen

/-- The matrix product of a 100000 × 16 array by a 16 × 3 array, entry by entry. -/
def prod (x : Vec Ideal S100000x16 .f32) (w : Vec Ideal S16x3 .f32) : Vec Ideal S100000x3 .f32 :=
  fun i => ∑ k : Fin 16, x (ix2 (i 0) k) * w (ix2 k (i 1))

theorem hz : (![0, 0] : Fin 2 → Nat) = fun _ => 0 := funext fun a => by fin_cases a <;> rfl

/-- One block's result at entry (a, b): the sum over k of the left block's (a, k) times the right block's (k, b). -/
theorem pay_ix2 (x0 : Vec Ideal S4000x16 .f32) (x1 : Vec Ideal S16x3 .f32) (a : Fin 4000) (b : Fin 3) :
    k1_pay1 x0 x1 (ix2 a b) = ∑ k : Fin 16, x0 (ix2 a k) * x1 (ix2 k b) := by
  unfold k1_pay1
  rw [shapeCast_self]
  exact Cert.LibDot.matmul_10_zero_apply dot_S4000x16_S16x3_S4000x3_1_0_0_1_n_n rfl rfl rfl rfl rfl rfl none
    (truncf .bf16 x0 bitsLt_bf16_f32) (truncf .bf16 x1 bitsLt_bf16_f32) a b

theorem pay_apply (x0 : Vec Ideal S4000x16 .f32) (x1 : Vec Ideal S16x3 .f32) (j : S4000x3.Idx) :
    k1_pay1 x0 x1 j = ∑ k : Fin 16, x0 (ix2 (j 0) k) * x1 (ix2 k (j 1)) := by
  obtain ⟨p, q, rfl⟩ : ∃ (p : Fin 4000) (q : Fin 3), j = ix2 p q := ⟨j 0, j 1, eq_ix2 j⟩
  exact pay_ix2 x0 x1 p q

/-- Where each window's block sits at grid point t: the left and the output blocks at row block t, the right array
    whole. Decided over the 25 points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Entry
variable (V : (c : Dev nD) → (b : Ref sig .tc) → Buf (Elt Ideal) ((c : Thread nD τ).loc b))

/-- The two input arrays as the region finds them, and the blocks of them a grid point works on, at their literal
    shapes. -/
abbrev xarr (c : Dev nD) : Vec Ideal S100000x16 .f32 := V c main_v49
abbrev warr (c : Dev nD) : Vec Ideal S16x3 .f32 := V c main_arg4
abbrev xblk (c : Dev nD) (t : Fin cfg1.N) : Vec Ideal S4000x16 .f32 := iblk1 V c 0 t
abbrev wblk (c : Dev nD) (t : Fin cfg1.N) : Vec Ideal S16x3 .f32 := iblk1 V c 1 t

/-- The left block at point t is rows 4000·t … of the left array. -/
theorem xblk_apply (c : Dev nD) (t : Fin cfg1.N) (y : S4000x16.Idx) (i : S100000x16.Idx)
    (h0 : (i 0).val = t.val * 4000 + (y 0).val) (h1 : (i 1).val = (y 1).val) :
    xblk V c t y = xarr V c i := by
  obtain ⟨e0, e1, -, -, -, -⟩ := idx_facts t
  unfold xblk iblk1
  rw [View.read_apply]
  show V c main_v49 _ = V c main_v49 _
  congr 1
  funext a
  apply Fin.ext
  match a with
  | ⟨0, _⟩ => show win1_0.index t 0 * 4000 + 1 * (y 0).val = (i 0).val; rw [e0, h0]; omega
  | ⟨1, _⟩ => show win1_0.index t 1 * 16 + 1 * (y 1).val = (i 1).val; rw [e1, h1]; omega

/-- The right block at every point is the right array. -/
theorem wblk_apply (c : Dev nD) (t : Fin cfg1.N) (y : S16x3.Idx) : wblk V c t y = warr V c y := by
  obtain ⟨-, -, e0, e1, -, -⟩ := idx_facts t
  unfold wblk iblk1
  rw [View.read_apply]
  show V c main_arg4 _ = V c main_arg4 _
  congr 1
  funext a
  apply Fin.ext
  match a with
  | ⟨0, _⟩ => show win1_1.index t 0 * 16 + 1 * (y 0).val = (y 0).val; rw [e0]; omega
  | ⟨1, _⟩ => show win1_1.index t 1 * 3 + 1 * (y 1).val = (y 1).val; rw [e1]; omega

/-- What point t writes back is block t of the product of the whole arrays. -/
theorem flushed_eq (c : Dev nD) (t : Fin cfg1.N) :
    (dat1 V c).flushed 2 t = ((cfg1.win 2).blk t).view.read (Elt Ideal) (prod (xarr V c) (warr V c)) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S4000x16) hz, View.ld_unit_zero (S := S16x3) hz]
  funext j
  show k1_pay1 (xblk V c t) (wblk V c t) j = prod (xarr V c) (warr V c) (((cfg1.win 2).blk t).view.emb j)
  rw [pay_apply]
  unfold prod
  refine Finset.sum_congr rfl fun k _ => ?_
  have hj0 : (j 0).val < 4000 := (j 0).isLt
  have ha : ((((cfg1.win 2).blk t).view.emb j) 0).val = t.val * 4000 + (j 0).val := by
    show win1_2.index t 0 * 4000 + 1 * (j 0).val = _; rw [e0]; omega
  have hb : ((((cfg1.win 2).blk t).view.emb j) 1).val = (j 1).val := by
    show win1_2.index t 1 * 3 + 1 * (j 1).val = _; rw [e1]; omega
  rw [xblk_apply V c t (ix2 (j 0) k) (ix2 ((((cfg1.win 2).blk t).view.emb j) 0) k) ha rfl, wblk_apply V c t]
  congr 2
  funext a
  apply Fin.ext
  match a with
  | ⟨0, _⟩ => rfl
  | ⟨1, _⟩ => exact hb.symm

/-- An index of the output array is in point t's block iff each coordinate is in the block's range. -/
theorem mem_blk (t : Fin cfg1.N) (i : S100000x3.Idx) :
    i ∈ ((cfg1.win 2).blk t).view.set ↔ ∀ a : Fin 2, win1_2.index t a * S4000x3.size a ≤ (i a).val ∧ (i a).val < win1_2.index t a * S4000x3.size a + S4000x3.size a := by
  show i ∈ ((View.whole main_v50).slice (win1_2.rect t)).set ↔ _
  rw [View.set_slice_whole, Rect.mem_set_unit]
  exact Iff.rfl

/-- The 25 blocks tile the output array: row r is in block r / 4000. -/
theorem cover (i : S100000x3.Idx) : ∃ t : Fin cfg1.N, (cfg1.win 2).flush t = true ∧ i ∈ ((cfg1.win 2).blk t).view.set := by
  have hi0 : (i 0).val < 100000 := (i 0).isLt
  have hi1 : (i 1).val < 3 := (i 1).isLt
  refine ⟨⟨(i 0).val / 4000, by show _ < 25; omega⟩, flush1_2 _, ?_⟩
  obtain ⟨-, -, -, -, e0, e1⟩ := idx_facts ⟨(i 0).val / 4000, by show _ < 25; omega⟩
  rw [mem_blk]
  intro a
  match a with
  | ⟨0, _⟩ => show win1_2.index _ (0 : Fin 2) * 4000 ≤ (i 0).val ∧ (i 0).val < win1_2.index _ (0 : Fin 2) * 4000 + 4000; rw [e0]; show (i 0).val / 4000 * 4000 ≤ _ ∧ _ < (i 0).val / 4000 * 4000 + 4000; omega
  | ⟨1, _⟩ => show win1_2.index _ (1 : Fin 2) * 3 ≤ (i 1).val ∧ (i 1).val < win1_2.index _ (1 : Fin 2) * 3 + 3; rw [e1]; omega

/-- The output array after the region: the matrix product of the two input arrays as the region found them. -/
theorem final (c : Dev nD) : (dat1 V c).arrAt 2 cfg1.N = prod (xarr V c) (warr V c) :=
  (dat1 V c).arrAt_eq_of_cover 2 (prod (xarr V c) (warr V c)) (fun t _ => flushed_eq V c t) cover

end Entry

end Cert.KernelIdeal.Product1

end
-- ==== Proof.Result.lean ====
/-
  The kernel's program at the ideal numbers computes the reference's result.

  Each pallas_call leaves in its output array the matrix product of its two input arrays as it found them (rows by
  columns, the sum over the shared axis). The reference's `dot_general` at the ideal numbers is the same sum, read at
  an entry. The first call finds the node features and the first layer's weights as launched, so its output is the
  reference's first product; the host operations between the calls then rebuild the reference's hidden layer, which
  is what the second call finds as its left operand, with the second layer's weights as launched on the right, so its
  output is the reference's second product; and the last stretch of host operations rebuilds the reference's result.
-/
import proofs.«123117_j81243601371888_1_alg».proof.Proof.Stages
import proofs.«123117_j81243601371888_1_alg».proof.Proof.Product0
import proofs.«123117_j81243601371888_1_alg».proof.Proof.Product1

set_option maxRecDepth 16384

noncomputable section

open scoped BigOperators
open Idealize.ShloMosaic Idealize.ShloMosaic.TcCoe Idealize.SL.Sem
open Idealize.ShloMosaic.ValueIdx

namespace Cert.KernelIdeal.Result

open Cert.KernelIdeal Cert.KernelIdeal.Gen Cert.KernelIdeal.Stages
open Cert.ReferenceIdeal.ReadP (val_main_v32 val_main_v49 val_main_v50 val_main_v67 val_main_v32_apply val_main_v50_apply
  lidx_main_v32 ridx_main_v32 lidx_main_v50 ridx_main_v50)

variable (m : (ℓ : Loc nD τ sig) → Buf (Elt Ideal) ℓ) (ρ : Dev nD → PrngReg)

/-- The reference's first `dot_general`, entry by entry, is the product of the whole arrays. -/
theorem dot32_eq (x : (⟨S100000x500, .f32⟩ : BufTy).Contents (Elt Ideal)) (w : (⟨S500x16, .f32⟩ : BufTy).Contents (Elt Ideal)) :
    val_main_v32 (F := Ideal) x w = Product0.prod x w := by
  funext i
  rw [val_main_v32_apply]
  unfold Product0.prod
  refine Finset.sum_congr rfl fun k _ => ?_
  have el : lidx_main_v32 i k = ix2 (i 0) k := funext fun a => by
    match a with
    | ⟨0, _⟩ => rfl
    | ⟨1, _⟩ => rfl
  have er : ridx_main_v32 i k = ix2 k (i 1) := funext fun a => by
    match a with
    | ⟨0, _⟩ => rfl
    | ⟨1, _⟩ => rfl
  rw [el, er]
  rfl

/-- The first pallas_call leaves the reference's first product in its output array. -/
theorem h32 (c : Dev nD) : W4 m ρ c (Proc.devRef .tc main_v32) = val_main_v32 (F := Ideal) (a0 m c) (a2 m c) := by
  rw [dot32_eq]
  refine (W4_arr m ρ c 2).trans ((Product0.final (V3 m ρ) c).trans ?_)
  show Product0.prod (W3 m ρ c (Proc.devRef .tc main_arg0)) (W3 m ρ c (Proc.devRef .tc main_arg2)) = _
  rw [pre_arg0, pre_arg2]

/-- The reference's second `dot_general`, entry by entry, is the product of the hidden layer by the weights. -/
theorem dot50_eq (x0 : (⟨S100000x500, .f32⟩ : BufTy).Contents (Elt Ideal)) (x1 : (⟨S2x3200000, .i32⟩ : BufTy).Contents (Elt Ideal))
    (x2 : (⟨S500x16, .f32⟩ : BufTy).Contents (Elt Ideal)) (x3 : (⟨S16, .f32⟩ : BufTy).Contents (Elt Ideal))
    (x4 : (⟨S16x3, .f32⟩ : BufTy).Contents (Elt Ideal)) :
    val_main_v50 (F := Ideal) x0 x1 x2 x3 x4 = Product1.prod (val_main_v49 (F := Ideal) x0 x1 x2 x3) x4 := by
  funext i
  rw [val_main_v50_apply]
  unfold Product1.prod
  refine Finset.sum_congr rfl fun k _ => ?_
  have el : lidx_main_v50 i k = ix2 (i 0) k := funext fun a => by
    match a with
    | ⟨0, _⟩ => rfl
    | ⟨1, _⟩ => rfl
  have er : ridx_main_v50 i k = ix2 k (i 1) := funext fun a => by
    match a with
    | ⟨0, _⟩ => rfl
    | ⟨1, _⟩ => rfl
  rw [el, er]
  rfl

/-- The second pallas_call leaves the reference's second product in its output array. -/
theorem h50 (c : Dev nD) :
    W7 m ρ c (Proc.devRef .tc main_v50) = val_main_v50 (F := Ideal) (a0 m c) (a1 m c) (a2 m c) (a3 m c) (a4 m c) := by
  rw [dot50_eq]
  refine (W7_arr m ρ c 2).trans ((Product1.final (V6 m ρ) c).trans ?_)
  show Product1.prod (W6 m ρ c (Proc.devRef .tc main_v49)) (W6 m ρ c (Proc.devRef .tc main_arg4)) = _
  rw [mid_v49 m ρ c (h32 m ρ c), mid_arg4]

/-- The program's result buffer ends at the reference's result, as a function of the six arguments. -/
theorem result (c : Dev nD) :
    W9 m ρ c (Proc.devRef .tc main_v67)
      = val_main_v67 (F := Ideal) (a0 m c) (a1 m c) (a2 m c) (a3 m c) (a4 m c) (a5 m c) :=
  tail_v67 m ρ c (h50 m ρ c)

end Cert.KernelIdeal.Result

end
-- ==== Proof.lean ====
/-
  The certificate of a two-layer graph convolution whose two dense products are pallas_calls, against the same network
  written with host matrix products.

  Both programs build the edge list with self-loops, the symmetric degree normalisation, and then twice: a dense
  product, a gather of its rows along the edges, a scaling, a scatter-add per destination node and a bias; a clamp at
  zero between the two layers and a row-wise log-softmax at the end. They differ only in how the two dense products
  are computed. The kernel tiles the 100000 rows into 25 blocks of 4000, narrows both operands to bf16 and multiplies
  each block on the matrix unit into a zero accumulator; over the extended reals the narrowing is the identity, the
  block product is the sum over the shared axis, and the blocks tile the rows, so each pallas_call's output array is
  the whole matrix product — which is what the reference's `dot_general` is over the extended reals. Every other
  operation is the same function applied to equal operands, so the results agree; no algebraic law and no finiteness
  of the inputs is used.

  The three frames: the kernel's two, at the word level and at the ideal numbers, are the generated frame certificates
  of a program of two regions among host stretches; the reference's is its run with the result dropped. The ideal pass
  rewrote nothing, so `preserves` is trivial.
-/
import proofs.«123117_j81243601371888_1_alg».proof.Defs
import proofs.«123117_j81243601371888_1_alg».proof.Proof.Gen.Kernel
import proofs.«123117_j81243601371888_1_alg».proof.Proof.Gen.Kernel.Frame
import proofs.«123117_j81243601371888_1_alg».proof.Proof.Gen.KernelIdeal
import proofs.«123117_j81243601371888_1_alg».proof.Proof.Gen.KernelIdeal.Frame
import proofs.«123117_j81243601371888_1_alg».proof.Proof.Gen.ReferenceIdeal
import proofs.«123117_j81243601371888_1_alg».proof.Proof.Gen.Pre_finite_inputs
import proofs.«123117_j81243601371888_1_alg».proof.Proof.RefRunP
import proofs.«123117_j81243601371888_1_alg».proof.Proof.RefReadP
import proofs.«123117_j81243601371888_1_alg».proof.Proof.KernelRunP
import proofs.«123117_j81243601371888_1_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result buffer at the same function of the six arguments: the kernel's by the two
    products read as values and the host stretches between them, the reference's by its run read stage by stage. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v67_eq, (hagree c).1, (hagree c).2.1, (hagree c).2.2.1, (hagree c).2.2.2.1,
    (hagree c).2.2.2.2.1, (hagree c).2.2.2.2.2]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
